-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩

class Facts : Prop where
  bcast_S_S2x60000x64 : S_.BroadcastsInDim S2x60000x64 (![] : Fin 0 → Fin S2x60000x64.rank)
  reducesTo_S2x60000x64_S_d0_1_2 : S2x60000x64.ReducesTo [0, 1, 2] S_
  h_S_ : 0 < S_.numel
  bcast_S_S2x60000x16x16 : S_.BroadcastsInDim S2x60000x16x16 (![] : Fin 0 → Fin S2x60000x16x16.rank)
  reducesTo_S2x60000x16x16_S_d0_1_2_3 : S2x60000x16x16.ReducesTo [0, 1, 2, 3] S_
  bcast_S_S2x60000x16x3 : S_.BroadcastsInDim S2x60000x16x3 (![] : Fin 0 → Fin S2x60000x16x3.rank)
  reducesTo_S2x60000x16x3_S_d0_1_2_3 : S2x60000x16x3.ReducesTo [0, 1, 2, 3] S_
  bcast_S_S128x1072 : S_.BroadcastsInDim S128x1072 (![] : Fin 0 → Fin S128x1072.rank)
  reducesTo_S128x1072_S_d0_1 : S128x1072.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x1072 1) : IVec S_ 1 :=
  let main_c_5 : IVec S_ 1 := constantI S_ 1 1#1
  let main_v17 : IVec S_ 1 := (fun x v => Host.reduce IntOp.andi x v reducesTo_S128x1072_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2x60000x64 .f32) (main_arg1 : IVec S2x60000x16 32) (main_arg2 : FVec F S2x60000x16x16 .f32) (main_arg3 : FVec F S2x60000x16x3 .f32) (main_arg4 : FVec F S128x1072 .f32) (main_arg5 : FVec F S128 .f32) : IVec S_ 1 :=
  let main_v0 : FVec F S2x60000x64 .f32 := Host.absf main_arg0
  let main_cst : FVec F S_ .f32 := constant S_ .f32 0x7F800000#32
  let main_v1 : FVec F S2x60000x64 .f32 := broadcastInDim S2x60000x64 ![] bcast_S_S2x60000x64 main_cst
  let main_v2 : IVec S2x60000x64 1 := cmpf .olt main_v0 main_v1
  let main_c : IVec S_ 1 := constantI S_ 1 1#1
  let main_v3 : IVec S_ 1 := (fun x v => Host.reduce IntOp.andi x v reducesTo_S2x60000x64_S_d0_1_2 h_S_) main_v2 main_c
  let main_v4 : FVec F S2x60000x16x16 .f32 := Host.absf main_arg2
  let main_cst_0 : FVec F S_ .f32 := constant S_ .f32 0x7F800000#32
  let main_v5 : FVec F S2x60000x16x16 .f32 := broadcastInDim S2x60000x16x16 ![] bcast_S_S2x60000x16x16 main_cst_0
  let main_v6 : IVec S2x60000x16x16 1 := cmpf .olt main_v4 main_v5
  let main_c_1 : IVec S_ 1 := constantI S_ 1 1#1
  let main_v7 : IVec S_ 1 := (fun x v => Host.reduce IntOp.andi x v reducesTo_S2x60000x16x16_S_d0_1_2_3 h_S_) main_v6 main_c_1
  let main_v8 : IVec S_ 1 := andi main_v3 main_v7
  let main_v9 : FVec F S2x60000x16x3 .f32 := Host.absf main_arg3
  let main_cst_2 : FVec F S_ .f32 := constant S_ .f32 0x7F800000#32
  let main_v10 : FVec F S2x60000x16x3 .f32 := broadcastInDim S2x60000x16x3 ![] bcast_S_S2x60000x16x3 main_cst_2
  let main_v11 : IVec S2x60000x16x3 1 := cmpf .olt main_v9 main_v10
  let main_c_3 : IVec S_ 1 := constantI S_ 1 1#1
  let main_v12 : IVec S_ 1 := (fun x v => Host.reduce IntOp.andi x v reducesTo_S2x60000x16x3_S_d0_1_2_3 h_S_) main_v11 main_c_3
  let main_v13 : IVec S_ 1 := andi main_v8 main_v12
  let main_v14 : FVec F S128x1072 .f32 := Host.absf main_arg4
  let main_cst_4 : FVec F S_ .f32 := constant S_ .f32 0x7F800000#32
  let main_v15 : FVec F S128x1072 .f32 := broadcastInDim S128x1072 ![] bcast_S_S128x1072 main_cst_4
  let main_v16 : IVec S128x1072 1 := cmpf .olt main_v14 main_v15
  fn_part1 (F := F) main_arg5 main_v13 main_v16
-- ==== Kernel.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩
abbrev S2x60000x16x1 : Shape := ⟨4, ![2, 60000, 16, 1]⟩
abbrev S2x60000x16x64 : Shape := ⟨4, ![2, 60000, 16, 64]⟩
abbrev S128x1024 : Shape := ⟨2, ![128, 1024]⟩
abbrev S1024x128 : Shape := ⟨2, ![1024, 128]⟩
abbrev S128x48 : Shape := ⟨2, ![128, 48]⟩
abbrev S48x128 : Shape := ⟨2, ![48, 128]⟩
abbrev S1x128 : Shape := ⟨2, ![1, 128]⟩
abbrev S2x60000x128 : Shape := ⟨3, ![2, 60000, 128]⟩
abbrev S1x1000x16x64 : Shape := ⟨4, ![1, 1000, 16, 64]⟩
abbrev S1x1000x16x3 : Shape := ⟨4, ![1, 1000, 16, 3]⟩
abbrev S1x1000x16x16 : Shape := ⟨4, ![1, 1000, 16, 16]⟩
abbrev S1x1000x128 : Shape := ⟨3, ![1, 1000, 128]⟩
abbrev S1000x16x64 : Shape := ⟨3, ![1000, 16, 64]⟩
abbrev S1000x16x3 : Shape := ⟨3, ![1000, 16, 3]⟩
abbrev S1000x16x16 : Shape := ⟨3, ![1000, 16, 16]⟩
abbrev S1000x64x16 : Shape := ⟨3, ![1000, 64, 16]⟩
abbrev S1000x3x16 : Shape := ⟨3, ![1000, 3, 16]⟩
abbrev S1000x1024 : Shape := ⟨2, ![1000, 1024]⟩
abbrev S1000x48 : Shape := ⟨2, ![1000, 48]⟩
abbrev S1000x128 : Shape := ⟨2, ![1000, 128]⟩

abbrev nBuf : Space → Nat
  | .hbm => 21
  | .vmem => 11
  | .smem => 0
  | _ => 0

abbrev bufTy : (tb : Table) → Fin (tcTables nBuf tb) → BufTy
  | .hbm, ⟨0, _⟩ => ⟨S2x60000x64, .f32⟩
  | .hbm, ⟨1, _⟩ => ⟨S2x60000x16, .i32⟩
  | .hbm, ⟨2, _⟩ => ⟨S2x60000x16x16, .f32⟩
  | .hbm, ⟨3, _⟩ => ⟨S2x60000x16x3, .f32⟩
  | .hbm, ⟨4, _⟩ => ⟨S128x1072, .f32⟩
  | .hbm, ⟨5, _⟩ => ⟨S128, .f32⟩
  | .hbm, ⟨6, _⟩ => ⟨S_, .i32⟩
  | .hbm, ⟨7, _⟩ => ⟨S2x60000x16, .i32⟩
  | .hbm, ⟨8, _⟩ => ⟨S2x60000x16, .i1⟩
  | .hbm, ⟨9, _⟩ => ⟨S_, .i32⟩
  | .hbm, ⟨10, _⟩ => ⟨S2x60000x16, .i32⟩
  | .hbm, ⟨11, _⟩ => ⟨S2x60000x16, .i32⟩
  | .hbm, ⟨12, _⟩ => ⟨S2x60000x16, .i32⟩
  | .hbm, ⟨13, _⟩ => ⟨S2x60000x16x1, .i32⟩
  | .hbm, ⟨14, _⟩ => ⟨S2x60000x16x64, .f32⟩
  | .hbm, ⟨15, _⟩ => ⟨S128x1024, .f32⟩
  | .hbm, ⟨16, _⟩ => ⟨S1024x128, .f32⟩
  | .hbm, ⟨17, _⟩ => ⟨S128x48, .f32⟩
  | .hbm, ⟨18, _⟩ => ⟨S48x128, .f32⟩
  | .hbm, ⟨19, _⟩ => ⟨S1x128, .f32⟩
  | .hbm, ⟨20, _⟩ => ⟨S2x60000x128, .f32⟩
  | .local _ .vmem, ⟨0, _⟩ => ⟨S1x1000x16x64, .f32⟩
  | .local _ .vmem, ⟨1, _⟩ => ⟨S1x1000x16x64, .f32⟩
  | .local _ .vmem, ⟨2, _⟩ => ⟨S1x1000x16x3, .f32⟩
  | .local _ .vmem, ⟨3, _⟩ => ⟨S1x1000x16x3, .f32⟩
  | .local _ .vmem, ⟨4, _⟩ => ⟨S1x1000x16x16, .f32⟩
  | .local _ .vmem, ⟨5, _⟩ => ⟨S1x1000x16x16, .f32⟩
  | .local _ .vmem, ⟨6, _⟩ => ⟨S1024x128, .f32⟩
  | .local _ .vmem, ⟨7, _⟩ => ⟨S48x128, .f32⟩
  | .local _ .vmem, ⟨8, _⟩ => ⟨S1x128, .f32⟩
  | .local _ .vmem, ⟨9, _⟩ => ⟨S1x1000x128, .f32⟩
  | .local _ .vmem, ⟨10, _⟩ => ⟨S1x1000x128, .f32⟩
  | _, _ => ⟨S2x60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 60], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2x60000x16 : S_.BroadcastsInDim S2x60000x16 (![] : Fin 0 → Fin S2x60000x16.rank)
  bcast_S2x60000x16_S2x60000x16x1_0_1_2 : S2x60000x16.BroadcastsInDim S2x60000x16x1 (![0, 1, 2] : Fin 3 → Fin S2x60000x16x1.rank)
  slices_S128x1072_S128x1024_0_0 : S128x1072.Slices ![0, 0] S128x1024
  transposes_S128x1024_S1024x128_1_0 : S128x1024.Transposes [1, 0] S1024x128
  slices_S128x1072_S128x48_0_1024 : S128x1072.Slices ![0, 1024] S128x48
  transposes_S128x48_S48x128_1_0 : S128x48.Transposes [1, 0] S48x128
  shapeCasts_S128_S1x128 : S128.ShapeCasts S1x128
  inb_S1x1000x16x64_S1x1000x16x64_0_0_0_0 : ∀ a, (![0, 0, 0, 0] : Fin 4 → Nat) a + S1x1000x16x64.size a ≤ S1x1000x16x64.size a
  h_S1x1000x16x64 : 0 < S1x1000x16x64.numel
  shapeCasts_S1x1000x16x64_S1000x16x64 : S1x1000x16x64.ShapeCasts S1000x16x64
  bitsLt_bf16_f32 : FTy.bits .bf16 < FTy.bits .f32
  inb_S1x1000x16x3_S1x1000x16x3_0_0_0_0 : ∀ a, (![0, 0, 0, 0] : Fin 4 → Nat) a + S1x1000x16x3.size a ≤ S1x1000x16x3.size a
  h_S1x1000x16x3 : 0 < S1x1000x16x3.numel
  shapeCasts_S1x1000x16x3_S1000x16x3 : S1x1000x16x3.ShapeCasts S1000x16x3
  inb_S1x1000x16x16_S1x1000x16x16_0_0_0_0 : ∀ a, (![0, 0, 0, 0] : Fin 4 → Nat) a + S1x1000x16x16.size a ≤ S1x1000x16x16.size a
  h_S1x1000x16x16 : 0 < S1x1000x16x16.numel
  shapeCasts_S1x1000x16x16_S1000x16x16 : S1x1000x16x16.ShapeCasts S1000x16x16
  shapeCasts_S1000x64x16_S1000x1024 : S1000x64x16.ShapeCasts S1000x1024
  shapeCasts_S1000x3x16_S1000x48 : S1000x3x16.ShapeCasts S1000x48
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  gather_S2x60000x64_S2x60000x16x1_S2x60000x16x64_3_1_0_0_1_3_1164_wf : GatherDims.WF S2x60000x64 S2x60000x16x1 S2x60000x16x64 [3] [1] [0] [1] [0] 3 ![1, 1, 64]
  dot_S1000x16x64_S1000x16x16_S1000x64x16_1_1_2_2_0_0_wf : DotDims.WF S1000x16x64 S1000x16x16 S1000x64x16 [1] [1] [2] [2] [0] [0]
  dot_S1000x16x3_S1000x16x16_S1000x3x16_1_1_2_2_0_0_wf : DotDims.WF S1000x16x3 S1000x16x16 S1000x3x16 [1] [1] [2] [2] [0] [0]
  dot_S1000x1024_S1024x128_S1000x128_1_0_0_1_n_n_wf : DotDims.WF S1000x1024 S1024x128 S1000x128 [1] [0] [0] [1] [] []
  dot_S1000x48_S48x128_S1000x128_1_0_0_1_n_n_wf : DotDims.WF S1000x48 S48x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x16x64.size a ≤ S2x60000x16x64.size a
  hwx0_0 : ∀ i : grid0.Coords, EltTy.bits .f32 = 32 ∨ (Rect.block (s := S2x60000x16x64) S1x1000x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x16x3.size a ≤ S2x60000x16x3.size a
  hwx0_1 : ∀ i : grid0.Coords, EltTy.bits .f32 = 32 ∨ (Rect.block (s := S2x60000x16x3) S1x1000x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x16x16.size a ≤ S2x60000x16x16.size a
  hwx0_2 : ∀ i : grid0.Coords, EltTy.bits .f32 = 32 ∨ (Rect.block (s := S2x60000x16x16) S1x1000x16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x128.size a ≤ S48x128.size a
  hwx0_4 : ∀ i : grid0.Coords, EltTy.bits .f32 = 32 ∨ (Rect.block (s := S48x128) S48x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1000x128.size a ≤ S2x60000x128.size a
  hwx0_6 : ∀ i : grid0.Coords, EltTy.bits .f32 = 32 ∨ (Rect.block (s := S2x60000x128) S1x1000x128.size (cc0_transform_6 i) (hinb0_6 i)).WholeWords (EltTy.packing .f32)

variable [Facts₀]

def gather_S2x60000x64_S2x60000x16x1_S2x60000x16x64_3_1_0_0_1_3_1164 : GatherDims S2x60000x64 S2x60000x16x1 S2x60000x16x64 where
  offsetDims := [3]
  collapsedSliceDims := [1]
  operandBatchingDims := [0]
  startIndicesBatchingDims := [0]
  startIndexMap := [1]
  indexVectorDim := 3
  sliceSizes := ![1, 1, 64]
  wf := gather_S2x60000x64_S2x60000x16x1_S2x60000x16x64_3_1_0_0_1_3_1164_wf
def dot_S1000x16x64_S1000x16x16_S1000x64x16_1_1_2_2_0_0 : DotDims S1000x16x64 S1000x16x16 S1000x64x16 where
  lhsContracting := [1]
  rhsContracting := [1]
  lhsNonContracting := [2]
  rhsNonContracting := [2]
  lhsBatch := [0]
  rhsBatch := [0]
  wf := dot_S1000x16x64_S1000x16x16_S1000x64x16_1_1_2_2_0_0_wf
def dot_S1000x16x3_S1000x16x16_S1000x3x16_1_1_2_2_0_0 : DotDims S1000x16x3 S1000x16x16 S1000x3x16 where
  lhsContracting := [1]
  rhsContracting := [1]
  lhsNonContracting := [2]
  rhsNonContracting := [2]
  lhsBatch := [0]
  rhsBatch := [0]
  wf := dot_S1000x16x3_S1000x16x16_S1000x3x16_1_1_2_2_0_0_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def dot_S1000x48_S48x128_S1000x128_1_0_0_1_n_n : DotDims S1000x48 S48x128 S1000x128 where
  lhsContracting := [1]
  rhsContracting := [0]
  lhsNonContracting := [0]
  rhsNonContracting := [1]
  lhsBatch := []
  rhsBatch := []
  wf := dot_S1000x48_S48x128_S1000x128_1_0_0_1_n_n_wf

abbrev win0_0 : Pipeline.Window sig grid0 :=
  Pipeline.Window.ofSpec (Memref.whole main_v6) S1x1000x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1000x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1000x16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S48x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩
abbrev S2x60000x16x1 : Shape := ⟨4, ![2, 60000, 16, 1]⟩
abbrev S2x60000x16x64 : Shape := ⟨4, ![2, 60000, 16, 64]⟩
abbrev S2x60000x16x67 : Shape := ⟨4, ![2, 60000, 16, 67]⟩
abbrev S2x60000x67x16 : Shape := ⟨4, ![2, 60000, 67, 16]⟩
abbrev S2x60000x1072 : Shape := ⟨3, ![2, 60000, 1072]⟩
abbrev S2x60000x128 : Shape := ⟨3, ![2, 60000, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x60000x64, .f32⟩
  | .hbm, ⟨1, _⟩ => ⟨S2x60000x16, .i32⟩
  | .hbm, ⟨2, _⟩ => ⟨S2x60000x16x16, .f32⟩
  | .hbm, ⟨3, _⟩ => ⟨S2x60000x16x3, .f32⟩
  | .hbm, ⟨4, _⟩ => ⟨S128x1072, .f32⟩
  | .hbm, ⟨5, _⟩ => ⟨S128, .f32⟩
  | .hbm, ⟨6, _⟩ => ⟨S_, .i32⟩
  | .hbm, ⟨7, _⟩ => ⟨S2x60000x16, .i32⟩
  | .hbm, ⟨8, _⟩ => ⟨S2x60000x16, .i1⟩
  | .hbm, ⟨9, _⟩ => ⟨S_, .i32⟩
  | .hbm, ⟨10, _⟩ => ⟨S2x60000x16, .i32⟩
  | .hbm, ⟨11, _⟩ => ⟨S2x60000x16, .i32⟩
  | .hbm, ⟨12, _⟩ => ⟨S2x60000x16, .i32⟩
  | .hbm, ⟨13, _⟩ => ⟨S2x60000x16x1, .i32⟩
  | .hbm, ⟨14, _⟩ => ⟨S2x60000x16x64, .f32⟩
  | .hbm, ⟨15, _⟩ => ⟨S2x60000x16x67, .f32⟩
  | .hbm, ⟨16, _⟩ => ⟨S2x60000x67x16, .f32⟩
  | .hbm, ⟨17, _⟩ => ⟨S2x60000x1072, .f32⟩
  | .hbm, ⟨18, _⟩ => ⟨S2x60000x128, .f32⟩
  | .hbm, ⟨19, _⟩ => ⟨S1x1x128, .f32⟩
  | .hbm, ⟨20, _⟩ => ⟨S2x60000x128, .f32⟩
  | .hbm, ⟨21, _⟩ => ⟨S2x60000x128, .f32⟩
  | _, _ => ⟨S2x60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S2x60000x16 : S_.BroadcastsInDim S2x60000x16 (![] : Fin 0 → Fin S2x60000x16.rank)
  bcast_S2x60000x16_S2x60000x16x1_0_1_2 : S2x60000x16.BroadcastsInDim S2x60000x16x1 (![0, 1, 2] : Fin 3 → Fin S2x60000x16x1.rank)
  concatenates_S2x60000x16x64_S2x60000x16x3_S2x60000x16x67_d3 : Shape.Concatenates [S2x60000x16x64, S2x60000x16x3] S2x60000x16x67 3
  shapeCasts_S2x60000x67x16_S2x60000x1072 : S2x60000x67x16.ShapeCasts S2x60000x1072
  bcast_S128_S1x1x128_2 : S128.BroadcastsInDim S1x1x128 (![2] : Fin 1 → Fin S1x1x128.rank)
  bcast_S1x1x128_S2x60000x128_0_1_2 : S1x1x128.BroadcastsInDim S2x60000x128 (![0, 1, 2] : Fin 3 → Fin S2x60000x128.rank)
  gather_S2x60000x64_S2x60000x16x1_S2x60000x16x64_3_1_0_0_1_3_1164_wf : GatherDims.WF S2x60000x64 S2x60000x16x1 S2x60000x16x64 [3] [1] [0] [1] [0] 3 ![1, 1, 64]
  dot_S2x60000x16x67_S2x60000x16x16_S2x60000x67x16_2_2_3_3_01_01_wf : DotDims.WF S2x60000x16x67 S2x60000x16x16 S2x60000x67x16 [2] [2] [3] [3] [0, 1] [0, 1]
  dot_S2x60000x1072_S128x1072_S2x60000x128_2_1_01_0_n_n_wf : DotDims.WF S2x60000x1072 S128x1072 S2x60000x128 [2] [1] [0, 1] [0] [] []

variable [Facts₀]

def gather_S2x60000x64_S2x60000x16x1_S2x60000x16x64_3_1_0_0_1_3_1164 : GatherDims S2x60000x64 S2x60000x16x1 S2x60000x16x64 where
  offsetDims := [3]
  collapsedSliceDims := [1]
  operandBatchingDims := [0]
  startIndicesBatchingDims := [0]
  startIndexMap := [1]
  indexVectorDim := 3
  sliceSizes := ![1, 1, 64]
  wf := gather_S2x60000x64_S2x60000x16x1_S2x60000x16x64_3_1_0_0_1_3_1164_wf
def dot_S2x60000x16x67_S2x60000x16x16_S2x60000x67x16_2_2_3_3_01_01 : DotDims S2x60000x16x67 S2x60000x16x16 S2x60000x67x16 where
  lhsContracting := [2]
  rhsContracting := [2]
  lhsNonContracting := [3]
  rhsNonContracting := [3]
  lhsBatch := [0, 1]
  rhsBatch := [0, 1]
  wf := dot_S2x60000x16x67_S2x60000x16x16_S2x60000x67x16_2_2_3_3_01_01_wf
def dot_S2x60000x1072_S128x1072_S2x60000x128_2_1_01_0_n_n : DotDims S2x60000x1072 S128x1072 S2x60000x128 where
  lhsContracting := [2]
  rhsContracting := [1]
  lhsNonContracting := [0, 1]
  rhsNonContracting := [0]
  lhsBatch := []
  rhsBatch := []
  wf := dot_S2x60000x1072_S128x1072_S2x60000x128_2_1_01_0_n_n_wf

class Facts : Prop extends Facts₀ where

variable [Facts]
-- ==== Proof.NeighbourSum.lean ====
/-
  The mathematics both programs compute, stated with no program in sight.

  For one point of one batch, with its K = 16 neighbours, let `x k c` be neighbour `k`'s feature `c` (64 gathered
  features followed by 3 additional ones, 67 in all) and `w k j` the point's weight for neighbour `k` and
  middle channel `j` (16 of them). The neighbourhood aggregation is
      P c j = ∑ k, x k c * w k j,
  flattened row-major to position `f = 16 c + j` (so `c = f / 16`, `j = f % 16`), and output feature `o` is
      ∑ f, P (f / 16) (f % 16) * W o f + bias o      over the 1072 = 67 · 16 flat positions.
  The kernel never joins the two kinds of feature: it aggregates the 64 gathered and the 3 additional features apart
  and contracts the first 1024 flat positions and the last 48 apart, adding the two partial results. The two agree
  because a finite sum over `Fin (1024 + 48)` is the sum of its two stretches, and position `1024 + f` has channel
  `64 + f / 16` and middle channel `f % 16`. Only commutative-monoid facts about `+` on the extended reals are used:
  no distributivity, so no finiteness.
-/
import Idealize.ShloMosaic.PureOps.Ideal
import Idealize.ShloMosaic.Lib.ValueIdx
import Mathlib.Algebra.BigOperators.Fin

noncomputable section

namespace Cert.NeighbourSum

open Idealize.ShloMosaic Idealize.ShloMosaic.ValueIdx

/-- The aggregation over the 16 neighbours: feature `c` against middle channel `j`. -/
def aggr {C : Nat} (x : Fin 16 → Fin C → EReal) (w : Fin 16 → Fin 16 → EReal) (c : Fin C) (j : Fin 16) : EReal :=
  ∑ k : Fin 16, x k c * w k j

/-- The kernel's form of one output entry: the gathered features' 1024 flat positions and the additional features'
    48 contracted apart against the matching stretches of the weight's row, the two added, then the bias. -/
def rowSplit (xg : Fin 16 → Fin 64 → EReal) (xa : Fin 16 → Fin 3 → EReal) (w : Fin 16 → Fin 16 → EReal)
    (Wg : Fin 1024 → EReal) (Wa : Fin 48 → EReal) (b : EReal) : EReal :=
  (∑ f : Fin 1024, aggr xg w ⟨f.val / 16, by have := f.isLt; omega⟩ ⟨f.val % 16, by omega⟩ * Wg f)
    + (∑ f : Fin 48, aggr xa w ⟨f.val / 16, by have := f.isLt; omega⟩ ⟨f.val % 16, by omega⟩ * Wa f) + b

/-- The reference's form: the 67 joined features' 1072 flat positions contracted at once. -/
def rowJoined (x : Fin 16 → Fin 67 → EReal) (w : Fin 16 → Fin 16 → EReal) (W : Fin 1072 → EReal) (b : EReal) : EReal :=
  (∑ f : Fin 1072, aggr x w ⟨f.val / 16, by have := f.isLt; omega⟩ ⟨f.val % 16, by omega⟩ * W f) + b

/-- A sum over 1072 positions is the sum over the first 1024 plus the sum over the last 48. -/
theorem sum_split (φ : Fin 1072 → EReal) :
    ∑ f : Fin 1072, φ f
      = (∑ f : Fin 1024, φ ⟨f.val, by have := f.isLt; omega⟩) + ∑ f : Fin 48, φ ⟨1024 + f.val, by have := f.isLt; omega⟩ := by
  have h : 1024 + 48 = 1072 := rfl
  rw [← Fin.sum_congr' φ h, Fin.sum_univ_add]
  rfl

/-- The two forms agree when the joined features are the gathered ones followed by the additional ones and the
    weight's row is cut at position 1024. -/
theorem rowJoined_eq_rowSplit (x : Fin 16 → Fin 67 → EReal) (xg : Fin 16 → Fin 64 → EReal) (xa : Fin 16 → Fin 3 → EReal)
    (w : Fin 16 → Fin 16 → EReal) (W : Fin 1072 → EReal) (b : EReal)
    (hg : ∀ (k : Fin 16) (c : Fin 64), x k ⟨c.val, by have := c.isLt; omega⟩ = xg k c)
    (ha : ∀ (k : Fin 16) (c : Fin 3), x k ⟨64 + c.val, by have := c.isLt; omega⟩ = xa k c) :
    rowJoined x w W b
      = rowSplit xg xa w (fun f => W ⟨f.val, by have := f.isLt; omega⟩) (fun f => W ⟨1024 + f.val, by have := f.isLt; omega⟩) b := by
  unfold rowJoined rowSplit
  rw [sum_split]
  refine congrArg₂ (· + ·) (congrArg₂ (· + ·) ?_ ?_) rfl
  · refine Finset.sum_congr rfl fun f _ => ?_
    refine congrArg₂ (· * ·) ?_ rfl
    unfold aggr
    refine Finset.sum_congr rfl fun k _ => ?_
    refine congrArg₂ (· * ·) ?_ rfl
    exact hg k ⟨f.val / 16, by have := f.isLt; omega⟩
  · refine Finset.sum_congr rfl fun f _ => ?_
    have hf := f.isLt
    refine congrArg₂ (· * ·) ?_ rfl
    have ec : (⟨(1024 + f.val) / 16, by omega⟩ : Fin 67) = ⟨64 + f.val / 16, by omega⟩ :=
      Fin.ext (by show (1024 + f.val) / 16 = 64 + f.val / 16; omega)
    have ej : (⟨(1024 + f.val) % 16, by omega⟩ : Fin 16) = ⟨f.val % 16, by omega⟩ :=
      Fin.ext (by show (1024 + f.val) % 16 = f.val % 16; omega)
    show aggr x w ⟨(1024 + f.val) / 16, _⟩ ⟨(1024 + f.val) % 16, _⟩ = _
    rw [ec, ej]
    unfold aggr
    refine Finset.sum_congr rfl fun k _ => ?_
    refine congrArg₂ (· * ·) ?_ rfl
    exact ha k ⟨f.val / 16, by omega⟩

/-- `rowSplit` depends on its six arguments only through their values. -/
theorem rowSplit_congr {xg xg' : Fin 16 → Fin 64 → EReal} {xa xa' : Fin 16 → Fin 3 → EReal} {w w' : Fin 16 → Fin 16 → EReal}
    {Wg Wg' : Fin 1024 → EReal} {Wa Wa' : Fin 48 → EReal} {b b' : EReal}
    (hg : ∀ k c, xg k c = xg' k c) (ha : ∀ k c, xa k c = xa' k c) (hw : ∀ k j, w k j = w' k j)
    (hWg : ∀ f, Wg f = Wg' f) (hWa : ∀ f, Wa f = Wa' f) (hb : b = b') :
    rowSplit xg xa w Wg Wa b = rowSplit xg' xa' w' Wg' Wa' b' := by
  obtain rfl : xg = xg' := funext fun k => funext fun c => hg k c
  obtain rfl : xa = xa' := funext fun k => funext fun c => ha k c
  obtain rfl : w = w' := funext fun k => funext fun j => hw k j
  obtain rfl : Wg = Wg' := funext hWg
  obtain rfl : Wa = Wa' := funext hWa
  rw [hb]

/-! ## The whole result array -/

/-- The result array as one function of the gathered neighbour features `g` [2, 60000, 16, 64], the additional
    features `a` [2, 60000, 16, 3], the per-neighbour weights `w` [2, 60000, 16, 16], the projection `W` [128, 1072]
    and the bias [128]: entry (batch, point, o) is `rowSplit` of that point's rows and of row `o` of `W`. -/
def result (g : FVec Ideal ⟨4, ![2, 60000, 16, 64]⟩ .f32) (a : FVec Ideal ⟨4, ![2, 60000, 16, 3]⟩ .f32)
    (w : FVec Ideal ⟨4, ![2, 60000, 16, 16]⟩ .f32) (W : FVec Ideal ⟨2, ![128, 1072]⟩ .f32) (bias : FVec Ideal ⟨1, ![128]⟩ .f32) :
    FVec Ideal ⟨3, ![2, 60000, 128]⟩ .f32 := fun i =>
  rowSplit (fun k c => g (ix4 (i 0) (i 1) k c)) (fun k c => a (ix4 (i 0) (i 1) k c)) (fun k j => w (ix4 (i 0) (i 1) k j))
    (fun f => W (ix2 (i 2) ⟨f.val, by have := f.isLt; omega⟩)) (fun f => W (ix2 (i 2) ⟨1024 + f.val, by have := f.isLt; omega⟩))
    (bias (ix1 (i 2)))

end Cert.NeighbourSum

end
-- ==== Proof.BodyValue.lean ====
/-
  What one grid point's body stores, read at an index.

  The body loads the point's block of gathered features [1, 1000, 16, 64], of additional features [1, 1000, 16, 3] and of
  per-neighbour weights [1, 1000, 16, 16], the two transposed stretches of the projection ([1024, 128] and [48, 128])
  and the bias row [1, 128]. For each of its 1000 rows it contracts the features against the weights over the 16
  neighbours (a batched product, the row the batch axis), flattens (channel, middle channel) row-major, contracts the
  flat positions against the projection's stretch, adds the two partial products and the bias. Read at (row p, output
  feature o) that is `Cert.NeighbourSum.rowSplit` of row p's slices and of column o of the two stretches. At the ideal
  values a change of float format is the identity and a product accumulated into zero is the plain sum.
-/
import proofs.«112302_j4097398800823_1_alg».proof.Proof.Gen.KernelIdeal.Skeleton
import proofs.«112302_j4097398800823_1_alg».proof.Proof.NeighbourSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.NeighbourSum

/-! ## Each contraction's operand indices, axis by axis -/

theorem lhsG_0 (i : S1000x64x16.Idx) (q : dot_S1000x16x64_S1000x16x16_S1000x64x16_1_1_2_2_0_0.contr.Idx) :
    (dot_S1000x16x64_S1000x16x16_S1000x64x16_1_1_2_2_0_0.lhsIdx i q 0).val = (i 0).val := by
  unfold DotDims.lhsIdx
  rw [dif_pos (show (0 : Fin S1000x16x64.rank) ∈ dot_S1000x16x64_S1000x16x16_S1000x64x16_1_1_2_2_0_0.lhsBatch by decide)]
  rfl
theorem lhsG_1 (i : S1000x64x16.Idx) (q : dot_S1000x16x64_S1000x16x16_S1000x64x16_1_1_2_2_0_0.contr.Idx) :
    (dot_S1000x16x64_S1000x16x16_S1000x64x16_1_1_2_2_0_0.lhsIdx i q 1).val = (q ⟨0, by decide⟩).val :=
  dot_S1000x16x64_S1000x16x16_S1000x64x16_1_1_2_2_0_0.lhsIdx_val_of_single rfl i q
theorem lhsG_2 (i : S1000x64x16.Idx) (q : dot_S1000x16x64_S1000x16x16_S1000x64x16_1_1_2_2_0_0.contr.Idx) :
    (dot_S1000x16x64_S1000x16x16_S1000x64x16_1_1_2_2_0_0.lhsIdx i q 2).val = (i 1).val := by
  unfold DotDims.lhsIdx
  rw [dif_neg (show ¬(2 : Fin S1000x16x64.rank) ∈ dot_S1000x16x64_S1000x16x16_S1000x64x16_1_1_2_2_0_0.lhsBatch by decide), dif_pos (show (2 : Fin S1000x16x64.rank) ∈ dot_S1000x16x64_S1000x16x16_S1000x64x16_1_1_2_2_0_0.lhsNonContracting by decide)]
  rfl
theorem rhsG_0 (i : S1000x64x16.Idx) (q : dot_S1000x16x64_S1000x16x16_S1000x64x16_1_1_2_2_0_0.contr.Idx) :
    (dot_S1000x16x64_S1000x16x16_S1000x64x16_1_1_2_2_0_0.rhsIdx i q 0).val = (i 0).val := by
  unfold DotDims.rhsIdx
  rw [dif_pos (show (0 : Fin S1000x16x16.rank) ∈ dot_S1000x16x64_S1000x16x16_S1000x64x16_1_1_2_2_0_0.rhsBatch by decide)]
  rfl
theorem rhsG_1 (i : S1000x64x16.Idx) (q : dot_S1000x16x64_S1000x16x16_S1000x64x16_1_1_2_2_0_0.contr.Idx) :
    (dot_S1000x16x64_S1000x16x16_S1000x64x16_1_1_2_2_0_0.rhsIdx i q 1).val = (q ⟨0, by decide⟩).val :=
  dot_S1000x16x64_S1000x16x16_S1000x64x16_1_1_2_2_0_0.rhsIdx_val_of_single rfl i q
theorem rhsG_2 (i : S1000x64x16.Idx) (q : dot_S1000x16x64_S1000x16x16_S1000x64x16_1_1_2_2_0_0.contr.Idx) :
    (dot_S1000x16x64_S1000x16x16_S1000x64x16_1_1_2_2_0_0.rhsIdx i q 2).val = (i 2).val := by
  unfold DotDims.rhsIdx
  rw [dif_neg (show ¬(2 : Fin S1000x16x16.rank) ∈ dot_S1000x16x64_S1000x16x16_S1000x64x16_1_1_2_2_0_0.rhsBatch by decide), dif_pos (show (2 : Fin S1000x16x16.rank) ∈ dot_S1000x16x64_S1000x16x16_S1000x64x16_1_1_2_2_0_0.rhsNonContracting by decide)]
  rfl
theorem lhsA_0 (i : S1000x3x16.Idx) (q : dot_S1000x16x3_S1000x16x16_S1000x3x16_1_1_2_2_0_0.contr.Idx) :
    (dot_S1000x16x3_S1000x16x16_S1000x3x16_1_1_2_2_0_0.lhsIdx i q 0).val = (i 0).val := by
  unfold DotDims.lhsIdx
  rw [dif_pos (show (0 : Fin S1000x16x3.rank) ∈ dot_S1000x16x3_S1000x16x16_S1000x3x16_1_1_2_2_0_0.lhsBatch by decide)]
  rfl
theorem lhsA_1 (i : S1000x3x16.Idx) (q : dot_S1000x16x3_S1000x16x16_S1000x3x16_1_1_2_2_0_0.contr.Idx) :
    (dot_S1000x16x3_S1000x16x16_S1000x3x16_1_1_2_2_0_0.lhsIdx i q 1).val = (q ⟨0, by decide⟩).val :=
  dot_S1000x16x3_S1000x16x16_S1000x3x16_1_1_2_2_0_0.lhsIdx_val_of_single rfl i q
theorem lhsA_2 (i : S1000x3x16.Idx) (q : dot_S1000x16x3_S1000x16x16_S1000x3x16_1_1_2_2_0_0.contr.Idx) :
    (dot_S1000x16x3_S1000x16x16_S1000x3x16_1_1_2_2_0_0.lhsIdx i q 2).val = (i 1).val := by
  unfold DotDims.lhsIdx
  rw [dif_neg (show ¬(2 : Fin S1000x16x3.rank) ∈ dot_S1000x16x3_S1000x16x16_S1000x3x16_1_1_2_2_0_0.lhsBatch by decide), dif_pos (show (2 : Fin S1000x16x3.rank) ∈ dot_S1000x16x3_S1000x16x16_S1000x3x16_1_1_2_2_0_0.lhsNonContracting by decide)]
  rfl
theorem rhsA_0 (i : S1000x3x16.Idx) (q : dot_S1000x16x3_S1000x16x16_S1000x3x16_1_1_2_2_0_0.contr.Idx) :
    (dot_S1000x16x3_S1000x16x16_S1000x3x16_1_1_2_2_0_0.rhsIdx i q 0).val = (i 0).val := by
  unfold DotDims.rhsIdx
  rw [dif_pos (show (0 : Fin S1000x16x16.rank) ∈ dot_S1000x16x3_S1000x16x16_S1000x3x16_1_1_2_2_0_0.rhsBatch by decide)]
  rfl
theorem rhsA_1 (i : S1000x3x16.Idx) (q : dot_S1000x16x3_S1000x16x16_S1000x3x16_1_1_2_2_0_0.contr.Idx) :
    (dot_S1000x16x3_S1000x16x16_S1000x3x16_1_1_2_2_0_0.rhsIdx i q 1).val = (q ⟨0, by decide⟩).val :=
  dot_S1000x16x3_S1000x16x16_S1000x3x16_1_1_2_2_0_0.rhsIdx_val_of_single rfl i q
theorem rhsA_2 (i : S1000x3x16.Idx) (q : dot_S1000x16x3_S1000x16x16_S1000x3x16_1_1_2_2_0_0.contr.Idx) :
    (dot_S1000x16x3_S1000x16x16_S1000x3x16_1_1_2_2_0_0.rhsIdx i q 2).val = (i 2).val := by
  unfold DotDims.rhsIdx
  rw [dif_neg (show ¬(2 : Fin S1000x16x16.rank) ∈ dot_S1000x16x3_S1000x16x16_S1000x3x16_1_1_2_2_0_0.rhsBatch by decide), dif_pos (show (2 : Fin S1000x16x16.rank) ∈ dot_S1000x16x3_S1000x16x16_S1000x3x16_1_1_2_2_0_0.rhsNonContracting by decide)]
  rfl
theorem lhsPG_0 (i : S1000x128.Idx) (q : dot_S1000x1024_S1024x128_S1000x128_1_0_0_1_n_n.contr.Idx) :
    (dot_S1000x1024_S1024x128_S1000x128_1_0_0_1_n_n.lhsIdx i q 0).val = (i 0).val := by
  unfold DotDims.lhsIdx
  rw [dif_neg (show ¬(0 : Fin S1000x1024.rank) ∈ dot_S1000x1024_S1024x128_S1000x128_1_0_0_1_n_n.lhsBatch by decide), dif_pos (show (0 : Fin S1000x1024.rank) ∈ dot_S1000x1024_S1024x128_S1000x128_1_0_0_1_n_n.lhsNonContracting by decide)]
  rfl
theorem lhsPG_1 (i : S1000x128.Idx) (q : dot_S1000x1024_S1024x128_S1000x128_1_0_0_1_n_n.contr.Idx) :
    (dot_S1000x1024_S1024x128_S1000x128_1_0_0_1_n_n.lhsIdx i q 1).val = (q ⟨0, by decide⟩).val :=
  dot_S1000x1024_S1024x128_S1000x128_1_0_0_1_n_n.lhsIdx_val_of_single rfl i q
theorem rhsPG_0 (i : S1000x128.Idx) (q : dot_S1000x1024_S1024x128_S1000x128_1_0_0_1_n_n.contr.Idx) :
    (dot_S1000x1024_S1024x128_S1000x128_1_0_0_1_n_n.rhsIdx i q 0).val = (q ⟨0, by decide⟩).val :=
  dot_S1000x1024_S1024x128_S1000x128_1_0_0_1_n_n.rhsIdx_val_of_single rfl i q
theorem rhsPG_1 (i : S1000x128.Idx) (q : dot_S1000x1024_S1024x128_S1000x128_1_0_0_1_n_n.contr.Idx) :
    (dot_S1000x1024_S1024x128_S1000x128_1_0_0_1_n_n.rhsIdx i q 1).val = (i 1).val := by
  unfold DotDims.rhsIdx
  rw [dif_neg (show ¬(1 : Fin S1024x128.rank) ∈ dot_S1000x1024_S1024x128_S1000x128_1_0_0_1_n_n.rhsBatch by decide), dif_pos (show (1 : Fin S1024x128.rank) ∈ dot_S1000x1024_S1024x128_S1000x128_1_0_0_1_n_n.rhsNonContracting by decide)]
  rfl
theorem lhsPA_0 (i : S1000x128.Idx) (q : dot_S1000x48_S48x128_S1000x128_1_0_0_1_n_n.contr.Idx) :
    (dot_S1000x48_S48x128_S1000x128_1_0_0_1_n_n.lhsIdx i q 0).val = (i 0).val := by
  unfold DotDims.lhsIdx
  rw [dif_neg (show ¬(0 : Fin S1000x48.rank) ∈ dot_S1000x48_S48x128_S1000x128_1_0_0_1_n_n.lhsBatch by decide), dif_pos (show (0 : Fin S1000x48.rank) ∈ dot_S1000x48_S48x128_S1000x128_1_0_0_1_n_n.lhsNonContracting by decide)]
  rfl
theorem lhsPA_1 (i : S1000x128.Idx) (q : dot_S1000x48_S48x128_S1000x128_1_0_0_1_n_n.contr.Idx) :
    (dot_S1000x48_S48x128_S1000x128_1_0_0_1_n_n.lhsIdx i q 1).val = (q ⟨0, by decide⟩).val :=
  dot_S1000x48_S48x128_S1000x128_1_0_0_1_n_n.lhsIdx_val_of_single rfl i q
theorem rhsPA_0 (i : S1000x128.Idx) (q : dot_S1000x48_S48x128_S1000x128_1_0_0_1_n_n.contr.Idx) :
    (dot_S1000x48_S48x128_S1000x128_1_0_0_1_n_n.rhsIdx i q 0).val = (q ⟨0, by decide⟩).val :=
  dot_S1000x48_S48x128_S1000x128_1_0_0_1_n_n.rhsIdx_val_of_single rfl i q
theorem rhsPA_1 (i : S1000x128.Idx) (q : dot_S1000x48_S48x128_S1000x128_1_0_0_1_n_n.contr.Idx) :
    (dot_S1000x48_S48x128_S1000x128_1_0_0_1_n_n.rhsIdx i q 1).val = (i 1).val := by
  unfold DotDims.rhsIdx
  rw [dif_neg (show ¬(1 : Fin S48x128.rank) ∈ dot_S1000x48_S48x128_S1000x128_1_0_0_1_n_n.rhsBatch by decide), dif_pos (show (1 : Fin S48x128.rank) ∈ dot_S1000x48_S48x128_S1000x128_1_0_0_1_n_n.rhsNonContracting by decide)]
  rfl

/-! ## The four contractions as plain sums -/

/-- The gathered features' aggregation over the 16 neighbours: entry (p, c, j) is `∑ k, l (p, k, c) * r (p, k, j)`. -/
theorem aggG_apply (l : FVec Ideal S1000x16x64 .bf16) (r : FVec Ideal S1000x16x16 .bf16) (p : Fin 1000) (c : Fin 64) (j : Fin 16) :
    matmul (F := Ideal) dot_S1000x16x64_S1000x16x16_S1000x64x16_1_1_2_2_0_0 none l r (constant S1000x64x16 .f32 0x00000000#32) (ix3 p c j)
      = ∑ k : Fin 16, l (ix3 p k c) * r (ix3 p k j) := by
  simp only [matmul]
  rw [Ideal.matmul_constant_zero_apply, ← Equiv.sum_comp (ValueIdx.contrEquiv1 dot_S1000x16x64_S1000x16x16_S1000x64x16_1_1_2_2_0_0 16 rfl rfl).symm]
  refine Finset.sum_congr rfl fun k _ => ?_
  have hk := ValueIdx.contrEquiv1_symm_val dot_S1000x16x64_S1000x16x16_S1000x64x16_1_1_2_2_0_0 16 rfl rfl k
  have el : dot_S1000x16x64_S1000x16x16_S1000x64x16_1_1_2_2_0_0.lhsIdx (ix3 p c j) ((ValueIdx.contrEquiv1 dot_S1000x16x64_S1000x16x16_S1000x64x16_1_1_2_2_0_0 16 rfl rfl).symm k) = ix3 p k c := funext fun a => Fin.ext (by
    match a with
    | ⟨0, _⟩ => exact lhsG_0 _ _
    | ⟨1, _⟩ => exact (lhsG_1 _ _).trans hk
    | ⟨2, _⟩ => exact lhsG_2 _ _)
  have er : dot_S1000x16x64_S1000x16x16_S1000x64x16_1_1_2_2_0_0.rhsIdx (ix3 p c j) ((ValueIdx.contrEquiv1 dot_S1000x16x64_S1000x16x16_S1000x64x16_1_1_2_2_0_0 16 rfl rfl).symm k) = ix3 p k j := funext fun a => Fin.ext (by
    match a with
    | ⟨0, _⟩ => exact rhsG_0 _ _
    | ⟨1, _⟩ => exact (rhsG_1 _ _).trans hk
    | ⟨2, _⟩ => exact rhsG_2 _ _)
  rw [el, er]

/-- The additional features' aggregation over the 16 neighbours, likewise. -/
theorem aggA_apply (l : FVec Ideal S1000x16x3 .bf16) (r : FVec Ideal S1000x16x16 .bf16) (p : Fin 1000) (c : Fin 3) (j : Fin 16) :
    matmul (F := Ideal) dot_S1000x16x3_S1000x16x16_S1000x3x16_1_1_2_2_0_0 none l r (constant S1000x3x16 .f32 0x00000000#32) (ix3 p c j)
      = ∑ k : Fin 16, l (ix3 p k c) * r (ix3 p k j) := by
  simp only [matmul]
  rw [Ideal.matmul_constant_zero_apply, ← Equiv.sum_comp (ValueIdx.contrEquiv1 dot_S1000x16x3_S1000x16x16_S1000x3x16_1_1_2_2_0_0 16 rfl rfl).symm]
  refine Finset.sum_congr rfl fun k _ => ?_
  have hk := ValueIdx.contrEquiv1_symm_val dot_S1000x16x3_S1000x16x16_S1000x3x16_1_1_2_2_0_0 16 rfl rfl k
  have el : dot_S1000x16x3_S1000x16x16_S1000x3x16_1_1_2_2_0_0.lhsIdx (ix3 p c j) ((ValueIdx.contrEquiv1 dot_S1000x16x3_S1000x16x16_S1000x3x16_1_1_2_2_0_0 16 rfl rfl).symm k) = ix3 p k c := funext fun a => Fin.ext (by
    match a with
    | ⟨0, _⟩ => exact lhsA_0 _ _
    | ⟨1, _⟩ => exact (lhsA_1 _ _).trans hk
    | ⟨2, _⟩ => exact lhsA_2 _ _)
  have er : dot_S1000x16x3_S1000x16x16_S1000x3x16_1_1_2_2_0_0.rhsIdx (ix3 p c j) ((ValueIdx.contrEquiv1 dot_S1000x16x3_S1000x16x16_S1000x3x16_1_1_2_2_0_0 16 rfl rfl).symm k) = ix3 p k j := funext fun a => Fin.ext (by
    match a with
    | ⟨0, _⟩ => exact rhsA_0 _ _
    | ⟨1, _⟩ => exact (rhsA_1 _ _).trans hk
    | ⟨2, _⟩ => exact rhsA_2 _ _)
  rw [el, er]

/-- The projection of the 1024 flat gathered positions: entry (p, o) is `∑ f, l (p, f) * r (f, o)`. -/
theorem projG_apply (l : FVec Ideal S1000x1024 .bf16) (r : FVec Ideal S1024x128 .bf16) (p : Fin 1000) (o : Fin 128) :
    matmul (F := Ideal) dot_S1000x1024_S1024x128_S1000x128_1_0_0_1_n_n none l r (constant S1000x128 .f32 0x00000000#32) (ix2 p o)
      = ∑ k : Fin 1024, l (ix2 p k) * r (ix2 k o) := by
  simp only [matmul]
  rw [Ideal.matmul_constant_zero_apply, ← Equiv.sum_comp (ValueIdx.contrEquiv1 dot_S1000x1024_S1024x128_S1000x128_1_0_0_1_n_n 1024 rfl rfl).symm]
  refine Finset.sum_congr rfl fun k _ => ?_
  have hk := ValueIdx.contrEquiv1_symm_val dot_S1000x1024_S1024x128_S1000x128_1_0_0_1_n_n 1024 rfl rfl k
  have el : dot_S1000x1024_S1024x128_S1000x128_1_0_0_1_n_n.lhsIdx (ix2 p o) ((ValueIdx.contrEquiv1 dot_S1000x1024_S1024x128_S1000x128_1_0_0_1_n_n 1024 rfl rfl).symm k) = ix2 p k := funext fun a => Fin.ext (by
    match a with
    | ⟨0, _⟩ => exact lhsPG_0 _ _
    | ⟨1, _⟩ => exact (lhsPG_1 _ _).trans hk)
  have er : dot_S1000x1024_S1024x128_S1000x128_1_0_0_1_n_n.rhsIdx (ix2 p o) ((ValueIdx.contrEquiv1 dot_S1000x1024_S1024x128_S1000x128_1_0_0_1_n_n 1024 rfl rfl).symm k) = ix2 k o := funext fun a => Fin.ext (by
    match a with
    | ⟨0, _⟩ => exact (rhsPG_0 _ _).trans hk
    | ⟨1, _⟩ => exact rhsPG_1 _ _)
  rw [el, er]

/-- The projection of the 48 flat additional positions, likewise. -/
theorem projA_apply (l : FVec Ideal S1000x48 .bf16) (r : FVec Ideal S48x128 .bf16) (p : Fin 1000) (o : Fin 128) :
    matmul (F := Ideal) dot_S1000x48_S48x128_S1000x128_1_0_0_1_n_n none l r (constant S1000x128 .f32 0x00000000#32) (ix2 p o)
      = ∑ k : Fin 48, l (ix2 p k) * r (ix2 k o) := by
  simp only [matmul]
  rw [Ideal.matmul_constant_zero_apply, ← Equiv.sum_comp (ValueIdx.contrEquiv1 dot_S1000x48_S48x128_S1000x128_1_0_0_1_n_n 48 rfl rfl).symm]
  refine Finset.sum_congr rfl fun k _ => ?_
  have hk := ValueIdx.contrEquiv1_symm_val dot_S1000x48_S48x128_S1000x128_1_0_0_1_n_n 48 rfl rfl k
  have el : dot_S1000x48_S48x128_S1000x128_1_0_0_1_n_n.lhsIdx (ix2 p o) ((ValueIdx.contrEquiv1 dot_S1000x48_S48x128_S1000x128_1_0_0_1_n_n 48 rfl rfl).symm k) = ix2 p k := funext fun a => Fin.ext (by
    match a with
    | ⟨0, _⟩ => exact lhsPA_0 _ _
    | ⟨1, _⟩ => exact (lhsPA_1 _ _).trans hk)
  have er : dot_S1000x48_S48x128_S1000x128_1_0_0_1_n_n.rhsIdx (ix2 p o) ((ValueIdx.contrEquiv1 dot_S1000x48_S48x128_S1000x128_1_0_0_1_n_n 48 rfl rfl).symm k) = ix2 k o := funext fun a => Fin.ext (by
    match a with
    | ⟨0, _⟩ => exact (rhsPA_0 _ _).trans hk
    | ⟨1, _⟩ => exact rhsPA_1 _ _)
  rw [el, er]

/-! ## The two flattenings: flat position `f` is (channel `f / 16`, middle channel `f % 16`) -/

theorem flatG_apply (x : FVec Ideal S1000x64x16 .f32) (p : Fin 1000) (f : Fin 1024) :
    shapeCast S1000x1024 x shapeCasts_S1000x64x16_S1000x1024 (ix2 p f)
      = x (ix3 p ⟨f.val / 16, by have := f.isLt; omega⟩ ⟨f.val % 16, by omega⟩) :=
  shapeCast_apply x _ _ _ (by
    rw [Shape.rowMajor_val_three, Shape.rowMajor_val_two]
    show (p.val * 64 + f.val / 16) * 16 + f.val % 16 = p.val * 1024 + f.val
    omega)

theorem flatA_apply (x : FVec Ideal S1000x3x16 .f32) (p : Fin 1000) (f : Fin 48) :
    shapeCast S1000x48 x shapeCasts_S1000x3x16_S1000x48 (ix2 p f)
      = x (ix3 p ⟨f.val / 16, by have := f.isLt; omega⟩ ⟨f.val % 16, by omega⟩) :=
  shapeCast_apply x _ _ _ (by
    rw [Shape.rowMajor_val_three, Shape.rowMajor_val_two]
    show (p.val * 3 + f.val / 16) * 16 + f.val % 16 = p.val * 48 + f.val
    omega)

/-! ## The stored value at (row `p`, output feature `o`) -/

theorem stored_apply (v0 : Vec Ideal S1x1000x16x64 .f32) (v3 : Vec Ideal S1x1000x16x3 .f32) (v6 : Vec Ideal S1x1000x16x16 .f32)
    (v15 : Vec Ideal S1024x128 .f32) (v18 : Vec Ideal S48x128 .f32) (v24 : Vec Ideal S1x128 .f32)
    (u : Fin 1) (p : Fin 1000) (o : Fin 128) :
    k0_pay1 (F := Ideal) v0 v3 v6 v15 v18 v24 (ix3 u p o)
      = rowSplit (fun k c => v0 (ix4 (0 : Fin 1) p k c)) (fun k c => v3 (ix4 (0 : Fin 1) p k c))
          (fun k j => v6 (ix4 (0 : Fin 1) p k j)) (fun f => v15 (ix2 f o)) (fun f => v18 (ix2 f o))
          (v24 (ix2 (0 : Fin 1) o)) := by
  unfold k0_pay1 rowSplit aggr
  simp only [shapeCast_ab_1ab_apply, addf_apply, projG_apply, projA_apply, truncf_apply, flatG_apply, flatA_apply,
    aggG_apply, aggA_apply, shapeCast_self, shapeCast_1abc_abc_apply, broadcastTo_1b_ab_apply]

/-- The stored entry is the result array's entry, for ANY loaded blocks and arrays related as a grid point relates them:
    row `j 1` of the three per-point blocks is point `(i 0, i 1)`'s rows of the arrays, column `j 2` of the two
    projection stretches is row `i 2` of the projection cut at 1024, and the bias row at `j 2` is the bias at `i 2`. -/
theorem stored_eq_result (x0 : Vec Ideal S1x1000x16x64 .f32) (x1 : Vec Ideal S1x1000x16x3 .f32) (x2 : Vec Ideal S1x1000x16x16 .f32)
    (x3 : Vec Ideal S1024x128 .f32) (x4 : Vec Ideal S48x128 .f32) (x5 : Vec Ideal S1x128 .f32)
    (g : FVec Ideal S2x60000x16x64 .f32) (a : FVec Ideal S2x60000x16x3 .f32) (w : FVec Ideal S2x60000x16x16 .f32)
    (W : FVec Ideal S128x1072 .f32) (bias : FVec Ideal S128 .f32) (j : S1x1000x128.Idx) (i : S2x60000x128.Idx)
    (hg : ∀ (k : Fin 16) (c : Fin 64), x0 (ix4 (0 : Fin 1) (j 1) k c) = g (ix4 (i 0) (i 1) k c))
    (ha : ∀ (k : Fin 16) (c : Fin 3), x1 (ix4 (0 : Fin 1) (j 1) k c) = a (ix4 (i 0) (i 1) k c))
    (hw : ∀ (k : Fin 16) (jj : Fin 16), x2 (ix4 (0 : Fin 1) (j 1) k jj) = w (ix4 (i 0) (i 1) k jj))
    (hWg : ∀ f : Fin 1024, x3 (ix2 f (j 2)) = W (ix2 (i 2) ⟨f.val, by have := f.isLt; omega⟩))
    (hWa : ∀ f : Fin 48, x4 (ix2 f (j 2)) = W (ix2 (i 2) ⟨1024 + f.val, by have := f.isLt; omega⟩))
    (hb : x5 (ix2 (0 : Fin 1) (j 2)) = bias (ix1 (i 2))) :
    k0_pay1 (F := Ideal) x0 x1 x2 x3 x4 x5 j = result g a w W bias i := by
  refine (congrArg (k0_pay1 (F := Ideal) x0 x1 x2 x3 x4 x5) (eq_ix3 j)).trans ?_
  refine (stored_apply x0 x1 x2 x3 x4 x5 (j 0) (j 1) (j 2)).trans ?_
  unfold result
  exact rowSplit_congr hg ha hw hWg hWa hb

end Cert.KernelIdeal.BodyValue

end
-- ==== Proof.ArrayValue.lean ====
/-
  From one grid point's stored block to the whole result array.

  The grid has 2 · 60 points; point (b, q) handles rows 1000 q … 1000 q + 999 of batch b. Its blocks of the gathered
  features, the additional features and the weights are those rows of the three arrays; the two projection stretches
  and the bias row are the same whole arrays at every point. Before the region the host has gathered the neighbours'
  features, cut the projection [128, 1072] at column 1024 and transposed each part, and viewed the bias as one row:
  entry (f, o) of the first stretch is `W (o, f)`, of the second `W (o, 1024 + f)`, and entry (0, o) of the bias row is
  `bias o`. So what point (b, q) writes back is block (b, q) of `Cert.NeighbourSum.result`, the 120 blocks tile the
  result array, and the array ends holding `result`.
-/
import proofs.«112302_j4097398800823_1_alg».proof.Proof.Gen.KernelIdeal.Value
import proofs.«112302_j4097398800823_1_alg».proof.Proof.BodyValue
import Idealize.ShloMosaic.Lib.StableHlo.Run
import Idealize.ShloMosaic.Lib.ValueLayout
import Idealize.ShloMosaic.Lib.Pipeline.Value

noncomputable section

namespace Cert.KernelIdeal.ArrayValue

open Cert.KernelIdeal Cert.KernelIdeal.Gen Cert.KernelIdeal.Value Cert.KernelIdeal.BodyValue Cert.NeighbourSum
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the host prepares before the region -/

/-- The gathered features as a function of the features and the neighbour indices (a negative index counted from the
    end, as jnp indexing does, then the gather). -/
def gathered (x0 : (⟨S2x60000x64, .f32⟩ : BufTy).Contents (Elt Ideal)) (x1 : (⟨S2x60000x16, .i32⟩ : BufTy).Contents (Elt Ideal)) :
    FVec Ideal S2x60000x16x64 .f32 :=
  Host.gather gather_S2x60000x64_S2x60000x16x1_S2x60000x16x64_3_1_0_0_1_3_1164 x0
    (broadcastInDim S2x60000x16x1 ![0, 1, 2] bcast_S2x60000x16_S2x60000x16x1_0_1_2
      (select (cmpi .slt x1 (broadcastInDim S2x60000x16 ![] bcast_S_S2x60000x16 (constantI S_ 32 0#32)))
        (addi x1 (broadcastInDim S2x60000x16 ![] bcast_S_S2x60000x16 (constantI S_ 32 60000#32))) x1))

theorem V_gathered (c : Dev nD) :
    (V m c main_v6 : S2x60000x16x64.Idx → EReal)
      = gathered (m ((c : Thread nD τ).loc main_arg0)) (m ((c : Thread nD τ).loc main_arg1)) := by
  dsimp only [Gen.V, Gen.hostOps0]; after_results; rfl

theorem V_stretchG (c : Dev nD) :
    (V m c main_v8 : S1024x128.Idx → EReal)
      = transpose S1024x128 [1, 0] (extractStridedSlice S128x1024 ![0, 0] (m ((c : Thread nD τ).loc main_arg4)) slices_S128x1072_S128x1024_0_0)
          transposes_S128x1024_S1024x128_1_0 := by
  dsimp only [Gen.V, Gen.hostOps0]; after_results

theorem V_stretchA (c : Dev nD) :
    (V m c main_v10 : S48x128.Idx → EReal)
      = transpose S48x128 [1, 0] (extractStridedSlice S128x48 ![0, 1024] (m ((c : Thread nD τ).loc main_arg4)) slices_S128x1072_S128x48_0_1024)
          transposes_S128x48_S48x128_1_0 := by
  dsimp only [Gen.V, Gen.hostOps0]; after_results

theorem V_biasRow (c : Dev nD) :
    (V m c main_v11 : S1x128.Idx → EReal) = shapeCast S1x128 (m ((c : Thread nD τ).loc main_arg5)) shapeCasts_S128_S1x128 := by
  dsimp only [Gen.V, Gen.hostOps0]; after_results; rfl

/-- Entry (f, o) of the first stretch is the projection at (o, f). -/
theorem stretchG_apply (c : Dev nD) (f : Fin 1024) (o : Fin 128) :
    (V m c main_v8 : S1024x128.Idx → EReal) (ix2 f o)
      = (m ((c : Thread nD τ).loc main_arg4) : S128x1072.Idx → EReal) (ix2 o ⟨f.val, by have := f.isLt; omega⟩) := by
  rw [V_stretchG]
  refine (transpose_ix2_apply _ transposes_S128x1024_S1024x128_1_0 f o).trans ?_
  exact extractStridedSlice_apply _ _ slices_S128x1072_S128x1024_0_0 (ix2 o f) _ fun a => match a with
    | ⟨0, _⟩ => by show o.val = 0 + o.val; omega
    | ⟨1, _⟩ => by show f.val = 0 + f.val; omega

/-- Entry (f, o) of the second stretch is the projection at (o, 1024 + f). -/
theorem stretchA_apply (c : Dev nD) (f : Fin 48) (o : Fin 128) :
    (V m c main_v10 : S48x128.Idx → EReal) (ix2 f o)
      = (m ((c : Thread nD τ).loc main_arg4) : S128x1072.Idx → EReal) (ix2 o ⟨1024 + f.val, by have := f.isLt; omega⟩) := by
  rw [V_stretchA]
  refine (transpose_ix2_apply _ transposes_S128x48_S48x128_1_0 f o).trans ?_
  exact extractStridedSlice_apply _ _ slices_S128x1072_S128x48_0_1024 (ix2 o f) _ fun a => match a with
    | ⟨0, _⟩ => by show o.val = 0 + o.val; omega
    | ⟨1, _⟩ => by show 1024 + f.val = 1024 + f.val; rfl

/-- Entry (0, o) of the bias row is the bias at o. -/
theorem biasRow_apply (c : Dev nD) (u : Fin 1) (o : Fin 128) :
    (V m c main_v11 : S1x128.Idx → EReal) (ix2 u o) = (m ((c : Thread nD τ).loc main_arg5) : S128.Idx → EReal) (ix1 o) := by
  rw [V_biasRow]
  exact shapeCast_a_1a_apply _ shapeCasts_S128_S1x128 u o

/-! ## The result array -/

/-- What the result array ends holding, on core `c`. -/
def arrayResult (c : Dev nD) : FVec Ideal S2x60000x128 .f32 :=
  result (gathered (m ((c : Thread nD τ).loc main_arg0)) (m ((c : Thread nD τ).loc main_arg1)))
    (m ((c : Thread nD τ).loc main_arg3)) (m ((c : Thread nD τ).loc main_arg2)) (m ((c : Thread nD τ).loc main_arg4))
    (m ((c : Thread nD τ).loc main_arg5))

/-! ## The index maps over the grid -/

/-- Decided over the 120 points: the three per-point windows move with the output's block on the batch and point axes
    and stay at block 0 on their other axes; the projection stretches and the bias row never move; the output's block
    indices stay in range. -/
theorem idx_facts : ∀ t : Fin cfg0.N,
    win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0
    ∧ win0_1.index t (0 : Fin 4) = win0_6.index t (0 : Fin 3) ∧ win0_1.index t (1 : Fin 4) = win0_6.index t (1 : Fin 3)
    ∧ win0_1.index t (2 : Fin 4) = 0 ∧ win0_1.index t (3 : Fin 4) = 0
    ∧ win0_2.index t (0 : Fin 4) = win0_6.index t (0 : Fin 3) ∧ win0_2.index t (1 : Fin 4) = win0_6.index t (1 : Fin 3)
    ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 1 ∧ win0_6.index t (1 : Fin 3) ≤ 59 ∧ win0_6.index t (2 : Fin 3) = 0 :=
  (by decide +kernel : ∀ t : Fin grid0.N, _)

/-- Every (batch, thousand of points) is some point's output block. -/
theorem idx_onto : ∀ (q0 : Fin 2) (q1 : Fin 60), ∃ t : Fin cfg0.N, win0_6.index t = ![q0.val, q1.val, 0] :=
  (by decide +kernel : ∀ (q0 : Fin 2) (q1 : Fin 60), ∃ t : Fin grid0.N, win0_6.index t = ![q0.val, q1.val, 0])

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What a point writes back -/

/-- Entry `j` of what point `t`'s body stores is the result array's entry under it. -/
theorem stored_entry (c : Dev nD) (t : Fin cfg0.N) (j : S1x1000x128.Idx) :
    k0_pay1 (F := Ideal) (iblk m c 0 t) (iblk m c 1 t) (iblk m c 2 t) (iblk m c 3 t) (iblk m c 4 t) (iblk m c 5 t) j
      = arrayResult m c (((cfg0.win 6).blk t).view.emb j) := by
  obtain ⟨g0, g1, g2, g3, a0, a1, a2, a3, w0, w1, w2, w3, p0, p1, q0, q1, b0, b1, o0, o1, o2⟩ := idx_facts t
  have hj0 : (j 0).val < 1 := (j 0).isLt
  have hj1 : (j 1).val < 1000 := (j 1).isLt
  have hj2 : (j 2).val < 128 := (j 2).isLt
  unfold arrayResult
  refine stored_eq_result _ _ _ _ _ _ _ _ _ _ _ j _ ?_ ?_ ?_ ?_ ?_ ?_
  · intro k ch
    show (V m c main_v6 : S2x60000x16x64.Idx → EReal) (((cfg0.win 0).blk t).view.emb (ix4 (0 : Fin 1) (j 1) k ch)) = _
    rw [V_gathered]
    refine congrArg _ (funext fun a => Fin.ext ?_)
    match a with
    | ⟨0, _⟩ => show win0_0.index t (0 : Fin 4) * 1 + 1 * 0 = win0_6.index t (0 : Fin 3) * 1 + 1 * (j 0).val; omega
    | ⟨1, _⟩ => show win0_0.index t (1 : Fin 4) * 1000 + 1 * (j 1).val = win0_6.index t (1 : Fin 3) * 1000 + 1 * (j 1).val; omega
    | ⟨2, _⟩ => show win0_0.index t (2 : Fin 4) * 16 + 1 * k.val = k.val; omega
    | ⟨3, _⟩ => show win0_0.index t (3 : Fin 4) * 64 + 1 * ch.val = ch.val; omega
  · intro k ch
    show (V m c main_arg3 : S2x60000x16x3.Idx → EReal) (((cfg0.win 1).blk t).view.emb (ix4 (0 : Fin 1) (j 1) k ch)) = _
    rw [V_main_arg3]
    refine congrArg _ (funext fun a => Fin.ext ?_)
    match a with
    | ⟨0, _⟩ => show win0_1.index t (0 : Fin 4) * 1 + 1 * 0 = win0_6.index t (0 : Fin 3) * 1 + 1 * (j 0).val; omega
    | ⟨1, _⟩ => show win0_1.index t (1 : Fin 4) * 1000 + 1 * (j 1).val = win0_6.index t (1 : Fin 3) * 1000 + 1 * (j 1).val; omega
    | ⟨2, _⟩ => show win0_1.index t (2 : Fin 4) * 16 + 1 * k.val = k.val; omega
    | ⟨3, _⟩ => show win0_1.index t (3 : Fin 4) * 3 + 1 * ch.val = ch.val; omega
  · intro k jj
    show (V m c main_arg2 : S2x60000x16x16.Idx → EReal) (((cfg0.win 2).blk t).view.emb (ix4 (0 : Fin 1) (j 1) k jj)) = _
    rw [V_main_arg2]
    refine congrArg _ (funext fun a => Fin.ext ?_)
    match a with
    | ⟨0, _⟩ => show win0_2.index t (0 : Fin 4) * 1 + 1 * 0 = win0_6.index t (0 : Fin 3) * 1 + 1 * (j 0).val; omega
    | ⟨1, _⟩ => show win0_2.index t (1 : Fin 4) * 1000 + 1 * (j 1).val = win0_6.index t (1 : Fin 3) * 1000 + 1 * (j 1).val; omega
    | ⟨2, _⟩ => show win0_2.index t (2 : Fin 4) * 16 + 1 * k.val = k.val; omega
    | ⟨3, _⟩ => show win0_2.index t (3 : Fin 4) * 16 + 1 * jj.val = jj.val; omega
  · intro f
    show (V m c main_v8 : S1024x128.Idx → EReal) (((cfg0.win 3).blk t).view.emb (ix2 f (j 2))) = _
    have e : ((cfg0.win 3).blk t).view.emb (ix2 f (j 2)) = ix2 f (⟨(j 2).val, hj2⟩ : Fin 128) := funext fun a => Fin.ext (by
      match a with
      | ⟨0, _⟩ => show win0_3.index t (0 : Fin 2) * 1024 + 1 * f.val = f.val; omega
      | ⟨1, _⟩ => show win0_3.index t (1 : Fin 2) * 128 + 1 * (j 2).val = (j 2).val; omega)
    rw [e, stretchG_apply]
    refine congrArg _ (funext fun a => Fin.ext ?_)
    match a with
    | ⟨0, _⟩ => show (j 2).val = win0_6.index t (2 : Fin 3) * 128 + 1 * (j 2).val; omega
    | ⟨1, _⟩ => rfl
  · intro f
    show (V m c main_v10 : S48x128.Idx → EReal) (((cfg0.win 4).blk t).view.emb (ix2 f (j 2))) = _
    have e : ((cfg0.win 4).blk t).view.emb (ix2 f (j 2)) = ix2 f (⟨(j 2).val, hj2⟩ : Fin 128) := funext fun a => Fin.ext (by
      match a with
      | ⟨0, _⟩ => show win0_4.index t (0 : Fin 2) * 48 + 1 * f.val = f.val; omega
      | ⟨1, _⟩ => show win0_4.index t (1 : Fin 2) * 128 + 1 * (j 2).val = (j 2).val; omega)
    rw [e, stretchA_apply]
    refine congrArg _ (funext fun a => Fin.ext ?_)
    match a with
    | ⟨0, _⟩ => show (j 2).val = win0_6.index t (2 : Fin 3) * 128 + 1 * (j 2).val; omega
    | ⟨1, _⟩ => rfl
  · show (V m c main_v11 : S1x128.Idx → EReal) (((cfg0.win 5).blk t).view.emb (ix2 (0 : Fin 1) (j 2))) = _
    have e : ((cfg0.win 5).blk t).view.emb (ix2 (0 : Fin 1) (j 2)) = ix2 (0 : Fin 1) (⟨(j 2).val, hj2⟩ : Fin 128) := funext fun a => Fin.ext (by
      match a with
      | ⟨0, _⟩ => show win0_5.index t (0 : Fin 2) * 1 + 1 * 0 = 0; omega
      | ⟨1, _⟩ => show win0_5.index t (1 : Fin 2) * 128 + 1 * (j 2).val = (j 2).val; omega)
    rw [e, biasRow_apply]
    refine congrArg _ (funext fun a => Fin.ext ?_)
    match a with
    | ⟨0, _⟩ => show (j 2).val = win0_6.index t (2 : Fin 3) * 128 + 1 * (j 2).val; omega

/-- WHAT POINT `t` WRITES BACK is block `t` of the result array. -/
theorem flushed_eq (c : Dev nD) (t : Fin cfg0.N) :
    (dats m 0 c).flushed 6 t = ((cfg0.win 6).blk t).view.read (Elt Ideal) (arrayResult m c) := by
  rw [flushed6]
  unfold out0_6
  rw [View.canon_unit_zero hz3]
  simp only [View.ld_unit_zero (S := S1x1000x16x64) hz4, View.ld_unit_zero (S := S1x1000x16x3) hz4,
    View.ld_unit_zero (S := S1x1000x16x16) hz4, View.ld_unit_zero (S := S1024x128) hz2, View.ld_unit_zero (S := S48x128) hz2,
    View.ld_unit_zero (S := S1x128) hz2]
  funext j
  exact stored_entry m c t j

/-! ## The blocks tile the array -/

theorem mem_blk (t : Fin cfg0.N) (i : S2x60000x128.Idx) :
    i ∈ ((cfg0.win 6).blk t).view.set ↔ ∀ a : Fin 3, win0_6.index t a * S1x1000x128.size a ≤ (i a).val
      ∧ (i a).val < win0_6.index t a * S1x1000x128.size a + S1x1000x128.size a := by
  show i ∈ ((View.whole main_v12).slice (win0_6.rect t)).set ↔ _
  rw [View.set_slice_whole, Rect.mem_set_unit]
  exact Iff.rfl

/-- Entry (b, n, o) lies in the block of point (b, n / 1000). -/
theorem covered (i : S2x60000x128.Idx) :
    ∃ t : Fin cfg0.N, (cfg0.win 6).flush t = true ∧ i ∈ ((cfg0.win 6).blk t).view.set := by
  have hi0 : (i 0).val < 2 := (i 0).isLt
  have hi1 : (i 1).val < 60000 := (i 1).isLt
  have hi2 : (i 2).val < 128 := (i 2).isLt
  obtain ⟨t, ht⟩ := idx_onto ⟨(i 0).val, hi0⟩ ⟨(i 1).val / 1000, by omega⟩
  have q0 : win0_6.index t (0 : Fin 3) = (i 0).val := congrFun ht 0
  have q1 : win0_6.index t (1 : Fin 3) = (i 1).val / 1000 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1000 ≤ (i 1).val ∧ (i 1).val < win0_6.index t (1 : Fin 3) * 1000 + 1000; omega
  | ⟨2, _⟩ => show win0_6.index t (2 : Fin 3) * 128 ≤ (i 2).val ∧ (i 2).val < win0_6.index t (2 : Fin 3) * 128 + 128; omega

/-- THE RESULT ARRAY after the run. -/
theorem final (c : Dev nD) : (dats m 0 c).arrAt 6 cfg0.N = arrayResult m c :=
  (dats m 0 c).arrAt_eq_of_cover 6 (arrayResult m c) (fun t _ => flushed_eq m c t) covered

/-- The run, read: the result array at `arrayResult`, the arguments unchanged. -/
theorem run : θ_run defs (onTc (τ := τ) (main (F := Ideal))) ⟨m, fun _ => 0, ρ⟩ fun r => ∀ c : Dev nD,
      r.2.mem ((c : Thread nD τ).loc main_v12) = arrayResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ArrayValue

end
-- ==== Proof.RefValue.lean ====
/-
  The reference, read index by index, is the result array `Cert.NeighbourSum.result` of the gathered features.

  The reference joins the gathered features [2, 60000, 16, 64] and the additional features [2, 60000, 16, 3] along the
  last axis (67 features), contracts them against the per-neighbour weights over the 16 neighbours (batch axes: batch
  and point), flattens (feature, middle channel) row-major to 1072 positions, contracts those against the projection's
  rows and adds the bias. At (batch, point, o) that is `rowJoined` of the point's rows; `rowJoined_eq_rowSplit` turns
  it into the kernel's split form. Flat position `f` of a point sits at row-major position
  `((batch · 60000 + point) · 1072 + f` of the flattened array, whose feature is `f / 16` and middle channel `f % 16`.
-/
import proofs.«112302_j4097398800823_1_alg».proof.Proof.Gen.ReferenceIdeal.Read
import proofs.«112302_j4097398800823_1_alg».proof.Proof.NeighbourSum
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.NeighbourSum

/-- The joined features at one of the first 64 positions are the gathered features there. -/
theorem joined_left (g : FVec Ideal S2x60000x16x64 .f32) (a : FVec Ideal S2x60000x16x3 .f32)
    (b : Fin 2) (n : Fin 60000) (k : Fin 16) (c : Fin 64) :
    concatenate S2x60000x16x67 3 [⟨S2x60000x16x64, g⟩, ⟨S2x60000x16x3, a⟩] concatenates_S2x60000x16x64_S2x60000x16x3_S2x60000x16x67_d3
        (ix4 b n k ⟨c.val, by have := c.isLt; omega⟩) = g (ix4 b n k c) :=
  concatenate_pair_apply_left (t := S2x60000x16x67) (s₁ := S2x60000x16x64) (s₂ := S2x60000x16x3) (3 : Fin 4) g a
    concatenates_S2x60000x16x64_S2x60000x16x3_S2x60000x16x67_d3 (ix4 b n k ⟨c.val, by have := c.isLt; omega⟩) rfl (ix4 b n k c) (fun d => match d with
    | ⟨0, _⟩ => rfl
    | ⟨1, _⟩ => rfl
    | ⟨2, _⟩ => rfl
    | ⟨3, _⟩ => rfl)

/-- At position `64 + c` they are the additional features at `c`. -/
theorem joined_right (g : FVec Ideal S2x60000x16x64 .f32) (a : FVec Ideal S2x60000x16x3 .f32)
    (b : Fin 2) (n : Fin 60000) (k : Fin 16) (c : Fin 3) :
    concatenate S2x60000x16x67 3 [⟨S2x60000x16x64, g⟩, ⟨S2x60000x16x3, a⟩] concatenates_S2x60000x16x64_S2x60000x16x3_S2x60000x16x67_d3
        (ix4 b n k ⟨64 + c.val, by have := c.isLt; omega⟩) = a (ix4 b n k c) :=
  concatenate_pair_apply_right (t := S2x60000x16x67) (s₁ := S2x60000x16x64) (s₂ := S2x60000x16x3) (3 : Fin 4) g a
    concatenates_S2x60000x16x64_S2x60000x16x3_S2x60000x16x67_d3 (ix4 b n k ⟨64 + c.val, by have := c.isLt; omega⟩) rfl rfl (ix4 b n k c) (fun d hd => match d, hd with
    | ⟨0, _⟩, _ => rfl
    | ⟨1, _⟩, _ => rfl
    | ⟨2, _⟩, _ => rfl
    | ⟨3, _⟩, h => absurd rfl h) (by show c.val + 64 = 64 + c.val; omega)

variable (x0 : (⟨S2x60000x64, .f32⟩ : BufTy).Contents (Elt Ideal)) (x1 : (⟨S2x60000x16, .i32⟩ : BufTy).Contents (Elt Ideal))
  (x2 : (⟨S2x60000x16x16, .f32⟩ : BufTy).Contents (Elt Ideal)) (x3 : (⟨S2x60000x16x3, .f32⟩ : BufTy).Contents (Elt Ideal))
  (x4 : (⟨S128x1072, .f32⟩ : BufTy).Contents (Elt Ideal)) (x5 : (⟨S128, .f32⟩ : BufTy).Contents (Elt Ideal))

/-- The reference's result entry in the joined form: the sum over the 1072 flat positions of the aggregated joined
    features against row `i 2` of the projection, plus the bias. -/
theorem entry_joined (i : S2x60000x128.Idx) :
    val_main_v13 (F := Ideal) x0 x1 x2 x3 x4 x5 i
      = rowJoined (fun k c => val_main_v7 (F := Ideal) x0 x1 x3 (ix4 (i 0) (i 1) k c)) (fun k j => x2 (ix4 (i 0) (i 1) k j))
          (fun f => x4 (ix2 (i 2) f)) (x5 (ix1 (i 2))) := by
  have h0 : (i 0).val < 2 := (i 0).isLt
  have h1 : (i 1).val < 60000 := (i 1).isLt
  rw [val_main_v13_apply, val_main_v10_apply, val_main_v12_apply, val_main_v11_apply]
  unfold rowJoined aggr
  refine congrArg₂ (· + ·) (Finset.sum_congr rfl fun f _ => ?_) (congrArg x5 (funext fun a => match a with | ⟨0, _⟩ => rfl))
  have hf : f.val < 1072 := f.isLt
  rw [val_main_v9_apply, val_main_v8_apply]
  refine congrArg₂ (· * ·) (Finset.sum_congr rfl fun k _ => ?_)
    (congrArg x4 (funext fun a => match a with | ⟨0, _⟩ => rfl | ⟨1, _⟩ => rfl))
  refine congrArg₂ (· * ·) (congrArg (val_main_v7 (F := Ideal) x0 x1 x3) (funext fun a => Fin.ext ?_))
    (congrArg x2 (funext fun a => Fin.ext ?_))
  · match a with
    | ⟨0, _⟩ => show (((i 0).val * 60000 + (i 1).val) * 1072 + f.val) / 64320000 = (i 0).val; omega
    | ⟨1, _⟩ => show (((i 0).val * 60000 + (i 1).val) * 1072 + f.val) / 1072 % 60000 = (i 1).val; omega
    | ⟨2, _⟩ => rfl
    | ⟨3, _⟩ => show (((i 0).val * 60000 + (i 1).val) * 1072 + f.val) / 16 % 67 = f.val / 16; omega
  · match a with
    | ⟨0, _⟩ => show (((i 0).val * 60000 + (i 1).val) * 1072 + f.val) / 64320000 = (i 0).val; omega
    | ⟨1, _⟩ => show (((i 0).val * 60000 + (i 1).val) * 1072 + f.val) / 1072 % 60000 = (i 1).val; omega
    | ⟨2, _⟩ => rfl
    | ⟨3, _⟩ => show (((i 0).val * 60000 + (i 1).val) * 1072 + f.val) % 16 = f.val % 16; omega

/-- THE REFERENCE IS THE RESULT ARRAY of the gathered features, the additional features, the weights, the projection and
    the bias. -/
theorem ref_eq_result :
    val_main_v13 (F := Ideal) x0 x1 x2 x3 x4 x5 = result (val_main_v6 (F := Ideal) x0 x1) x3 x2 x4 x5 := by
  funext i
  rw [entry_joined]
  unfold result
  refine (rowJoined_eq_rowSplit _ (fun k c => val_main_v6 (F := Ideal) x0 x1 (ix4 (i 0) (i 1) k c))
    (fun k c => x3 (ix4 (i 0) (i 1) k c)) _ _ _ ?_ ?_).trans rfl
  · intro k c
    exact joined_left (val_main_v6 (F := Ideal) x0 x1) x3 (i 0) (i 1) k c
  · intro k c
    exact joined_right (val_main_v6 (F := Ideal) x0 x1) x3 (i 0) (i 1) k c

end Cert.ReferenceIdeal.RefValue

end
-- ==== Proof.lean ====
/-
  The certificate of a point-convolution layer fused with its linear projection.

  Both programs first gather, for each of 2 · 60000 points, the 64 features of its 16 neighbours (the same host
  operations in both, a negative index counted from the end). The reference then joins the 3 additional features
  per neighbour, contracts the 67 features against the point's 16 × 16 neighbour weights over the neighbours, flattens
  (feature, middle channel) to 1072 positions, contracts them against the projection [128, 1072] and adds the bias. The
  kernel, on a 2 × 60 grid of blocks of 1000 points, contracts the gathered and the additional features apart, projects
  the 1024 and the 48 flat positions apart against the projection cut at column 1024, and adds the two and the bias.

  At the ideal values a change of float format is the identity and a product accumulated into zero is a plain sum,
  so both results are, entry by entry, `Cert.NeighbourSum.result` of the gathered features, the additional features,
  the weights, the projection and the bias: the reference by splitting its sum over the 1072 positions into the first
  1024 and the last 48 (`Cert.NeighbourSum.rowJoined_eq_rowSplit`, Proof/RefValue.lean), the kernel block by block
  (Proof/BodyValue.lean, Proof/ArrayValue.lean). Only the commutative-monoid laws of `+` on the extended reals are
  used, so the finiteness of the inputs is never opened. The idealization rewrote nothing, so `preserves` is `True`.
-/
import proofs.«112302_j4097398800823_1_alg».proof.Defs
import proofs.«112302_j4097398800823_1_alg».proof.Proof.Gen.Kernel
import proofs.«112302_j4097398800823_1_alg».proof.Proof.Gen.Kernel.Skeleton
import proofs.«112302_j4097398800823_1_alg».proof.Proof.Gen.Kernel.Launch
import proofs.«112302_j4097398800823_1_alg».proof.Proof.Gen.Kernel.Points
import proofs.«112302_j4097398800823_1_alg».proof.Proof.Gen.Kernel.Frame
import proofs.«112302_j4097398800823_1_alg».proof.Proof.Gen.KernelIdeal
import proofs.«112302_j4097398800823_1_alg».proof.Proof.Gen.KernelIdeal.Skeleton
import proofs.«112302_j4097398800823_1_alg».proof.Proof.Gen.KernelIdeal.Launch
import proofs.«112302_j4097398800823_1_alg».proof.Proof.Gen.KernelIdeal.Points
import proofs.«112302_j4097398800823_1_alg».proof.Proof.Gen.KernelIdeal.Frame
import proofs.«112302_j4097398800823_1_alg».proof.Proof.Gen.ReferenceIdeal
import proofs.«112302_j4097398800823_1_alg».proof.Proof.Gen.Pre_finite_inputs
import proofs.«112302_j4097398800823_1_alg».proof.Proof.Gen.KernelIdeal.Value
import proofs.«112302_j4097398800823_1_alg».proof.Proof.Gen.ReferenceIdeal.Run
import proofs.«112302_j4097398800823_1_alg».proof.Proof.Gen.ReferenceIdeal.Read
import proofs.«112302_j4097398800823_1_alg».proof.Proof.ArrayValue
import proofs.«112302_j4097398800823_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `Cert.NeighbourSum.result` of the gathered features, the additional
    features, the weights, the projection and the bias. -/
theorem algebraic : Cert.algebraic_KernelIdeal_ReferenceIdeal := by
  intro m ρ m' ρ' _ hagree
  refine ⟨fun c => Cert.KernelIdeal.ArrayValue.arrayResult m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v13_eq, Cert.ReferenceIdeal.RefValue.ref_eq_result, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
